-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S512x1024 : Shape := ⟨2, ![512, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S512x16 : Shape := ⟨2, ![512, 16]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The mathematics of a linear layer with a rank-16 adapter, computed block by block along the contracted axis.

  With X the 8192×4096 matrix of inputs (rows R), W the 4096×4096 weights, A the 16×4096 and B the 4096×16 adapter
  factors and b2 a 1×4096 row of biases, the layer's value at row R and output column C is

      (Σ_c X(R,c)·W(C,c) + b2(0,C)) + (Σ_r (Σ_c X(R,c)·A(r,c)) · B(C,r)) · 2.

  The contracted axis of 4096 is cut into four consecutive blocks of 1024; the dot product of two rows restricted to
  block kb is `blockDot`, and the four block dot products add up to the whole one — a regrouping of a finite sum, which
  uses only commutativity and associativity of + and so holds on the extended reals with no finiteness assumption.
  The same value read on the 4×2048×4096 layout (row R = bb·2048 + s) is `G3`; the two are one function through the
  row-major re-layouts (`reshape_Gout`).
-/
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

/-! ## Regrouping a sum of 4096 terms into four blocks of 1024 -/

/-- A sum over 4096 consecutive naturals is the sum over four blocks of the sums over each block's 1024. -/
theorem sum_blocks {M : Type*} [AddCommMonoid M] (f : ℕ → M) :
    ∑ kb ∈ Finset.range 4, ∑ kk : Fin 1024, f (kb * 1024 + kk.val) = ∑ c : Fin 4096, f c.val := by
  rw [Finset.sum_range (fun kb => ∑ kk : Fin 1024, f (kb * 1024 + kk.val))]
  rw [← Fintype.sum_prod_type' (fun (kb : Fin 4) (kk : Fin 1024) => f (kb.val * 1024 + kk.val))]
  rw [← Equiv.sum_comp (finProdFinEquiv (m := 4) (n := 1024)) (fun c : Fin (4 * 1024) => f c.val)]
  refine Finset.sum_congr rfl fun p _ => ?_
  congr 1
  show p.1.val * 1024 + p.2.val = p.2.val + 1024 * p.1.val
  omega

/-! ## Entries by natural coordinates, and block dot products -/

/-- An entry of a rank-2 array by natural-number coordinates; zero outside the array (never read there). -/
def at2 {R C : Nat} (a : (⟨2, ![R, C]⟩ : Shape).Idx → EReal) (r k : ℕ) : EReal :=
  if h : r < R ∧ k < C then a (ix2 ⟨r, h.1⟩ ⟨k, h.2⟩) else 0

theorem at2_of_lt {R C : Nat} (a : (⟨2, ![R, C]⟩ : Shape).Idx → EReal) {r k : ℕ} (hr : r < R) (hk : k < C) :
    at2 a r k = a (ix2 ⟨r, hr⟩ ⟨k, hk⟩) := dif_pos ⟨hr, hk⟩

theorem at2_val {R C : Nat} (a : (⟨2, ![R, C]⟩ : Shape).Idx → EReal) (p : Fin R) (q : Fin C) :
    at2 a p.val q.val = a (ix2 p q) := at2_of_lt a p.isLt q.isLt

/-- The dot product of row r of X with row s of Y over the kb-th block of 1024 columns. -/
def blockDot {R S : Nat} (X : (⟨2, ![R, 4096]⟩ : Shape).Idx → EReal) (Y : (⟨2, ![S, 4096]⟩ : Shape).Idx → EReal)
    (r s kb : ℕ) : EReal :=
  ∑ kk : Fin 1024, at2 X r (kb * 1024 + kk.val) * at2 Y s (kb * 1024 + kk.val)

/-- The four block dot products add up to the whole dot product of the two rows. -/
theorem sum_blockDot {R S : Nat} (X : (⟨2, ![R, 4096]⟩ : Shape).Idx → EReal) (Y : (⟨2, ![S, 4096]⟩ : Shape).Idx → EReal)
    {r s : ℕ} (hr : r < R) (hs : s < S) :
    ∑ kb ∈ Finset.range 4, blockDot X Y r s kb = ∑ c : Fin 4096, X (ix2 ⟨r, hr⟩ c) * Y (ix2 ⟨s, hs⟩ c) := by
  unfold blockDot
  rw [sum_blocks (fun c => at2 X r c * at2 Y s c)]
  refine Finset.sum_congr rfl fun c _ => ?_
  rw [at2_of_lt X hr c.isLt, at2_of_lt Y hs c.isLt]

/-! ## The layer's value -/

/-- The adapter's scale, 2 (as the programs spell it: the binary32 word of 2.0). -/
abbrev two : EReal := Ideal.ofBits .f32 0x40000000#32

/-- The layer on the 8192×4096 layout. -/
def Gout (X : (⟨2, ![8192, 4096]⟩ : Shape).Idx → EReal) (W : (⟨2, ![4096, 4096]⟩ : Shape).Idx → EReal)
    (b2 : (⟨2, ![1, 4096]⟩ : Shape).Idx → EReal) (A : (⟨2, ![16, 4096]⟩ : Shape).Idx → EReal)
    (B : (⟨2, ![4096, 16]⟩ : Shape).Idx → EReal) : (⟨2, ![8192, 4096]⟩ : Shape).Idx → EReal :=
  fun j => ((∑ c : Fin 4096, X (ix2 (j 0) c) * W (ix2 (j 1) c)) + b2 (ix2 0 (j 1)))
    + (∑ r : Fin 16, (∑ c : Fin 4096, X (ix2 (j 0) c) * A (ix2 r c)) * B (ix2 (j 1) r)) * two

/-- The layer at row R and column C, with every contraction over 4096 written as its four block dot products. -/
theorem Gout_at (X : (⟨2, ![8192, 4096]⟩ : Shape).Idx → EReal) (W : (⟨2, ![4096, 4096]⟩ : Shape).Idx → EReal)
    (b2 : (⟨2, ![1, 4096]⟩ : Shape).Idx → EReal) (A : (⟨2, ![16, 4096]⟩ : Shape).Idx → EReal)
    (B : (⟨2, ![4096, 16]⟩ : Shape).Idx → EReal) {R C : ℕ} (hR : R < 8192) (hC : C < 4096) :
    Gout X W b2 A B (ix2 ⟨R, hR⟩ ⟨C, hC⟩)
      = ((∑ kb ∈ Finset.range 4, blockDot X W R C kb) + b2 (ix2 0 ⟨C, hC⟩))
        + (∑ r : Fin 16, (∑ kb ∈ Finset.range 4, blockDot X A R r.val kb) * B (ix2 ⟨C, hC⟩ r)) * two := by
  rw [sum_blockDot X W hR hC]
  have hA : ∀ r : Fin 16, ∑ kb ∈ Finset.range 4, blockDot X A R r.val kb
      = ∑ c : Fin 4096, X (ix2 ⟨R, hR⟩ c) * A (ix2 r c) := fun r => sum_blockDot X A hR r.isLt
  simp only [hA]
  rfl

/-- The layer on the 4×2048×4096 layout. -/
def G3 (x : (⟨3, ![4, 2048, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal :=
  fun i => ((∑ c : Fin 4096, x (ix3 (i 0) (i 1) c) * W (ix2 (i 2) c)) + b (ix1 (i 2)))
    + (∑ r : Fin 16, (∑ c : Fin 4096, x (ix3 (i 0) (i 1) c) * A (ix2 r c)) * B (ix2 (i 2) r)) * two

/-- Through the row-major re-layouts (x to 8192×4096, the bias to a 1×4096 row, the result back to 4×2048×4096) the
    two are one function: row bb·2048 + s of the flat layout is position (bb, s). -/
theorem reshape_Gout (x : (⟨3, ![4, 2048, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩
        (Gout (shapeCast ⟨2, ![8192, 4096]⟩ x h1) W (shapeCast ⟨2, ![1, 4096]⟩ b h2) A B) h3
      = G3 x W b A B := by
  funext i
  obtain ⟨bb, s, o, rfl⟩ : ∃ (bb : Fin 4) (s : Fin 2048) (o : Fin 4096), i = ix3 bb s o := ⟨i 0, i 1, i 2, eq_ix3 i⟩
  have hR : bb.val * 2048 + s.val < 8192 := by have := bb.isLt; have := s.isLt; omega
  rw [shapeCast_apply _ h3 (ix3 bb s o) (ix2 ⟨bb.val * 2048 + s.val, hR⟩ o)
    (by rw [Shape.rowMajor_val_two, Shape.rowMajor_val_three]; rfl)]
  have ex : ∀ c : Fin 4096, shapeCast ⟨2, ![8192, 4096]⟩ x h1 (ix2 ⟨bb.val * 2048 + s.val, hR⟩ c) = x (ix3 bb s c) :=
    fun c => shapeCast_apply x h1 _ _ (by rw [Shape.rowMajor_val_two, Shape.rowMajor_val_three]; rfl)
  have eb : shapeCast ⟨2, ![1, 4096]⟩ b h2 (ix2 0 o) = b (ix1 o) :=
    shapeCast_apply b h2 _ _ (by
      rw [Shape.rowMajor_val_two, Shape.rowMajor_val_one]
      show o.val = 0 * 4096 + o.val
      omega)
  show ((∑ c : Fin 4096, shapeCast ⟨2, ![8192, 4096]⟩ x h1 (ix2 ⟨bb.val * 2048 + s.val, hR⟩ c) * W (ix2 o c))
      + shapeCast ⟨2, ![1, 4096]⟩ b h2 (ix2 0 o))
      + (∑ r : Fin 16, (∑ c : Fin 4096, shapeCast ⟨2, ![8192, 4096]⟩ x h1 (ix2 ⟨bb.val * 2048 + s.val, hR⟩ c) * A (ix2 r c))
          * B (ix2 o r)) * two = _
  simp only [ex, eb]
  rfl

end Cert.Spec

end
-- ==== Proof.Blocks.lean ====
/-
  Where each block of the grid sits in its array.

  The grid has 16 × 4 × 4 points, numbered t = (i·4 + j)·4 + k with i = t / 16 the block of 512 rows, j = t / 4 mod 4
  the block of 1024 output columns and k = t mod 4 the step along the contracted axis. At point t the body sees rows
  i·512 … of x (columns k·1024 …), rows j·1024 … of W (columns k·1024 …), all 16 rows of A (columns k·1024 …), rows
  j·1024 … of B, and columns j·1024 … of the bias row; it writes rows i·512 …, columns j·1024 … of the result. The
  arrays x (flattened to 8192 × 4096) and the bias (as a 1 × 4096 row) are re-layouts of two arguments.
-/
import proofs.«168070_j22548578304347_1_alg».proof.Proof.Gen.KernelIdeal.Frame
import proofs.«168070_j22548578304347_1_alg».proof.Proof.Spec
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.Spec

variable (m : (ℓ : Loc nD τ sig) → Buf (Elt Ideal) ℓ)

/-! ## The arrays as the region finds them -/

/-- x flattened to 8192 × 4096. -/
abbrev Xarr (c : Dev nD) : Vec Ideal S8192x4096 .f32 := V m c main_v0
/-- W, 4096 × 4096. -/
abbrev Warr (c : Dev nD) : Vec Ideal S4096x4096 .f32 := V m c main_arg1
/-- A, 16 × 4096. -/
abbrev Aarr (c : Dev nD) : Vec Ideal S16x4096 .f32 := V m c main_arg3
/-- B, 4096 × 16. -/
abbrev Barr (c : Dev nD) : Vec Ideal S4096x16 .f32 := V m c main_arg4
/-- The bias as a 1 × 4096 row. -/
abbrev biasArr (c : Dev nD) : Vec Ideal S1x4096 .f32 := V m c main_v1

/-- The block indices of the six windows at point t, in closed form (decided over the 256 points). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-! ## The input blocks, entry by entry -/

/-- The x block at point t: rows (t/16)·512 …, columns (t mod 4)·1024 …. -/
theorem xblk_apply (c : Dev nD) (t : Fin cfg0.N) (p : Fin 512) (kk : Fin 1024) :
    (iblk m c 0 t : Vec Ideal S512x1024 .f32) (ix2 p kk) = at2 (Xarr m c) (t.val / 16 * 512 + p.val) (t.val % 4 * 1024 + kk.val) := by
  have hN : t.val < 256 := lt_of_lt_of_eq t.isLt (show cfg0.N = 256 from N_0)
  have hp := p.isLt
  have hkk := kk.isLt
  obtain ⟨e00, e01, e10, e11, e20, e21, e30, e31, e40, e41, e50, e51⟩ := idx_facts t
  rw [at2_of_lt (Xarr m c) (show t.val / 16 * 512 + p.val < _ by omega) (show t.val % 4 * 1024 + kk.val < _ by omega)]
  show V m c main_v0 (((cfg0.win 0).blk t).view.emb (ix2 p kk)) = V m c main_v0 _
  refine congrArg (V m c main_v0) (funext fun a => Fin.ext ?_)
  match a with
  | ⟨0, _⟩ => show win0_0.index t (0 : Fin 2) * 512 + 1 * p.val = t.val / 16 * 512 + p.val; rw [e00]; omega
  | ⟨1, _⟩ => show win0_0.index t (1 : Fin 2) * 1024 + 1 * kk.val = t.val % 4 * 1024 + kk.val; rw [e01]; omega

/-- The W block at point t: rows (t/4 mod 4)·1024 …, columns (t mod 4)·1024 …. -/
theorem wblk_apply (c : Dev nD) (t : Fin cfg0.N) (q : Fin 1024) (kk : Fin 1024) :
    (iblk m c 1 t : Vec Ideal S1024x1024 .f32) (ix2 q kk) = at2 (Warr m c) (t.val / 4 % 4 * 1024 + q.val) (t.val % 4 * 1024 + kk.val) := by
  have hN : t.val < 256 := lt_of_lt_of_eq t.isLt (show cfg0.N = 256 from N_0)
  have hq := q.isLt
  have hkk := kk.isLt
  obtain ⟨e00, e01, e10, e11, e20, e21, e30, e31, e40, e41, e50, e51⟩ := idx_facts t
  rw [at2_of_lt (Warr m c) (show t.val / 4 % 4 * 1024 + q.val < _ by omega) (show t.val % 4 * 1024 + kk.val < _ by omega)]
  show V m c main_arg1 (((cfg0.win 1).blk t).view.emb (ix2 q kk)) = V m c main_arg1 _
  refine congrArg (V m c main_arg1) (funext fun a => Fin.ext ?_)
  match a with
  | ⟨0, _⟩ => show win0_1.index t (0 : Fin 2) * 1024 + 1 * q.val = t.val / 4 % 4 * 1024 + q.val; rw [e10]; omega
  | ⟨1, _⟩ => show win0_1.index t (1 : Fin 2) * 1024 + 1 * kk.val = t.val % 4 * 1024 + kk.val; rw [e11]; omega

/-- The A block at point t: all 16 rows, columns (t mod 4)·1024 …. -/
theorem ablk_apply (c : Dev nD) (t : Fin cfg0.N) (r : Fin 16) (kk : Fin 1024) :
    (iblk m c 2 t : Vec Ideal S16x1024 .f32) (ix2 r kk) = at2 (Aarr m c) (r.val) (t.val % 4 * 1024 + kk.val) := by
  have hN : t.val < 256 := lt_of_lt_of_eq t.isLt (show cfg0.N = 256 from N_0)
  have hr := r.isLt
  have hkk := kk.isLt
  obtain ⟨e00, e01, e10, e11, e20, e21, e30, e31, e40, e41, e50, e51⟩ := idx_facts t
  rw [at2_of_lt (Aarr m c) (show r.val < _ by omega) (show t.val % 4 * 1024 + kk.val < _ by omega)]
  show V m c main_arg3 (((cfg0.win 2).blk t).view.emb (ix2 r kk)) = V m c main_arg3 _
  refine congrArg (V m c main_arg3) (funext fun a => Fin.ext ?_)
  match a with
  | ⟨0, _⟩ => show win0_2.index t (0 : Fin 2) * 16 + 1 * r.val = r.val; rw [e20]; omega
  | ⟨1, _⟩ => show win0_2.index t (1 : Fin 2) * 1024 + 1 * kk.val = t.val % 4 * 1024 + kk.val; rw [e21]; omega

/-- The B block at point t: rows (t/4 mod 4)·1024 …, all 16 columns. -/
theorem bblk_apply (c : Dev nD) (t : Fin cfg0.N) (q : Fin 1024) (r : Fin 16) :
    (iblk m c 3 t : Vec Ideal S1024x16 .f32) (ix2 q r) = at2 (Barr m c) (t.val / 4 % 4 * 1024 + q.val) (r.val) := by
  have hN : t.val < 256 := lt_of_lt_of_eq t.isLt (show cfg0.N = 256 from N_0)
  have hq := q.isLt
  have hr := r.isLt
  obtain ⟨e00, e01, e10, e11, e20, e21, e30, e31, e40, e41, e50, e51⟩ := idx_facts t
  rw [at2_of_lt (Barr m c) (show t.val / 4 % 4 * 1024 + q.val < _ by omega) (show r.val < _ by omega)]
  show V m c main_arg4 (((cfg0.win 3).blk t).view.emb (ix2 q r)) = V m c main_arg4 _
  refine congrArg (V m c main_arg4) (funext fun a => Fin.ext ?_)
  match a with
  | ⟨0, _⟩ => show win0_3.index t (0 : Fin 2) * 1024 + 1 * q.val = t.val / 4 % 4 * 1024 + q.val; rw [e30]; omega
  | ⟨1, _⟩ => show win0_3.index t (1 : Fin 2) * 16 + 1 * r.val = r.val; rw [e31]; omega

/-- The bias block at point t: the one row, columns (t/4 mod 4)·1024 …. -/
theorem biasblk_apply (c : Dev nD) (t : Fin cfg0.N) (z : Fin 1) (q : Fin 1024) :
    (iblk m c 4 t : Vec Ideal S1x1024 .f32) (ix2 z q) = at2 (biasArr m c) (z.val) (t.val / 4 % 4 * 1024 + q.val) := by
  have hN : t.val < 256 := lt_of_lt_of_eq t.isLt (show cfg0.N = 256 from N_0)
  have hz := z.isLt
  have hq := q.isLt
  obtain ⟨e00, e01, e10, e11, e20, e21, e30, e31, e40, e41, e50, e51⟩ := idx_facts t
  rw [at2_of_lt (biasArr m c) (show z.val < _ by omega) (show t.val / 4 % 4 * 1024 + q.val < _ by omega)]
  show V m c main_v1 (((cfg0.win 4).blk t).view.emb (ix2 z q)) = V m c main_v1 _
  refine congrArg (V m c main_v1) (funext fun a => Fin.ext ?_)
  match a with
  | ⟨0, _⟩ => show win0_4.index t (0 : Fin 2) * 1 + 1 * z.val = z.val; rw [e40]; omega
  | ⟨1, _⟩ => show win0_4.index t (1 : Fin 2) * 1024 + 1 * q.val = t.val / 4 % 4 * 1024 + q.val; rw [e41]; omega

/-! ## The two re-layouts before the region -/

/-- The flattened x is the row-major re-layout of the first argument. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row is the re-layout of the third argument. -/
theorem biasArr_eq (c : Dev nD) :
    biasArr m c = shapeCast S1x4096 (m ((c : Thread nD τ).loc main_arg2)) shapeCasts_S4096_S1x4096 := by
  show StableHlo.after hostOps0 (fun b => m (c, b)) (Proc.devRef .tc main_v1) = _
  after_results
  rfl

theorem Warr_eq (c : Dev nD) : Warr m c = m ((c : Thread nD τ).loc main_arg1) := V_main_arg1 m c
theorem Aarr_eq (c : Dev nD) : Aarr m c = m ((c : Thread nD τ).loc main_arg3) := V_main_arg3 m c
theorem Barr_eq (c : Dev nD) : Barr m c = m ((c : Thread nD τ).loc main_arg4) := V_main_arg4 m c

end Cert.KernelIdeal.Blocks

end
-- ==== Proof.Pieces.lean ====
/-
  What each control case of the kernel body leaves behind, as a pure term of what it loaded.

  The body keeps two accumulators across the four steps of the contracted axis: accW (512×1024, the running x·Wᵀ block)
  and accA (512×16, the running x·Aᵀ block). At the first step (case A) both are reset to zero and then receive the
  step's two products; at the middle steps (case B) they receive the products on top of what the step before left; at
  the last step (case C) they do the same and the output block is then formed from the two finished accumulators, the
  bias row and the second adapter factor. Each accumulator is stored whole, so what it holds afterwards is the last
  store's payload, with a load of a buffer stored earlier in the same step reading that store's payload.
-/
import proofs.«168070_j22548578304347_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg3 : Memref sig .tc .vmem S512x1024 .f32) (harg3 : arg3.IsWhole)
  (arg4 : Memref sig .tc .vmem S1024x1024 .f32) (harg4 : arg4.IsWhole)
  (arg5 : Memref sig .tc .vmem S16x1024 .f32) (harg5 : arg5.IsWhole)
  (arg6 : Memref sig .tc .vmem S1024x16 .f32) (harg6 : arg6.IsWhole)
  (arg7 : Memref sig .tc .vmem S1x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S512x16 .f32) (harg10 : arg10.IsWhole)
  (x0 : Vec F S512x1024 .f32) (x1 : Vec F S1024x1024 .f32) (x2 : Vec F S16x1024 .f32)
  (x3 : Vec F S1024x16 .f32) (x4 : Vec F S1x1024 .f32)

/-! ## Case A: the first step of the contracted axis -/

theorem accW_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

theorem accA_A (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x16) hz, View.readCov_unit_zero (S := S512x16) _ hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-! ## Case B: a middle step -/

theorem accW_B (hc0 : ¬cond0_0 i) (hc1 : ¬cond0_1 i) (xs0 : Vec F S512x1024 .f32) (xs1 : Vec F S512x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x1024) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

theorem accA_B (hc0 : ¬cond0_0 i) (hc1 : ¬cond0_1 i) (xs0 : Vec F S512x1024 .f32) (xs1 : Vec F S512x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x16) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-! ## Case C: the last step, which also forms the output block -/

theorem accW_C (hc0 : ¬cond0_0 i) (hc1 : cond0_1 i) (xs0 : Vec F S512x1024 .f32) (xs1 : Vec F S512x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x1024) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

theorem accA_C (hc0 : ¬cond0_0 i) (hc1 : cond0_1 i) (xs0 : Vec F S512x1024 .f32) (xs1 : Vec F S512x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x16) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

theorem out_C (hc0 : ¬cond0_0 i) (hc1 : cond0_1 i) (xs0 : Vec F S512x1024 .f32) (xs1 : Vec F S512x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x1024) hz]
  simp only [View.readCov_unit_zero (S := S512x16) _ hz, View.readCov_unit_zero (S := S512x1024) _ hz, View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

end Cert.KernelIdeal.Pieces

end
-- ==== Proof.LibMatmulNT.lean ====
/-
  A general fact about rank-2 blocks at the ideal values, stated for any extents.

  A kernel's matrix product of an m×k block by an n×k block, both contracted on their LAST axis (the right operand is
  read transposed), accumulated onto a block acc, read at entry (a, b), is

      acc(a, b) + Σ_c A(a, c) · B(b, c)

  whatever contraction precision the operation carries: the ideal product is exact. Into the zero accumulator it is
  the bare sum.
-/
import Idealize.ShloMosaic.PureOps.Ideal.Laws
import Idealize.ShloMosaic.Lib.ValueIdx

noncomputable section

open scoped BigOperators

namespace Cert.LibMatmulNT

open Idealize.ShloMosaic Idealize.ShloMosaic.ValueIdx

/-- The left operand's index of the transposed-right product at output (a, b) and contraction coordinate c is (a, c). -/
theorem lhsIdx_nt {m k n : Nat} (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

/-- The right operand's index there is (b, c): its row is the output's column. -/
theorem rhsIdx_nt {m k n : Nat} (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- The product of an m×k block by an n×k block (both contracted on the last axis) accumulated onto acc, at the ideal
    values, read at (a, b): acc(a, b) + Σ_c A(a, c) · B(b, c). -/
theorem matmul_nt_apply {m k n : Nat} {φ₁ φ₂ : FTy} (prec : Option ContractPrecision)
    (A : FVec Ideal ⟨2, ![m, k]⟩ φ₁) (B : FVec Ideal ⟨2, ![n, k]⟩ φ₂) (acc : FVec Ideal ⟨2, ![m, n]⟩ .f32)
    (a : Fin m) (b : Fin n) :
    FloatOps.matmul (DotDims.transposedRhs m k n) prec A B acc (ix2 a b)
      = acc (ix2 a b) + ∑ c : Fin k, A (ix2 a c) * B (ix2 b c) := by
  rw [Ideal.matmul_apply, ← Equiv.sum_comp (contrEquiv1 (DotDims.transposedRhs m k n) k rfl rfl).symm]
  refine congrArg (acc (ix2 a b) + ·) (Finset.sum_congr rfl fun c _ => ?_)
  rw [lhsIdx_nt, rhsIdx_nt]

/-- Into the zero accumulator: the bare sum. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [matmul_nt_apply]
  show Ideal.ofBits .f32 0x00000000#32 + _ = _
  rw [Ideal.ofBits_zero_f32, zero_add]

end Cert.LibMatmulNT

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.PayIdx.lean ====
/-
  The body's stored values at one entry, at the ideal values (floats are extended reals, every operation exact, the
  narrowing to bfloat16 the identity).

  * the two resets store zero;
  * an accumulator update stores, at (p, q), the old entry plus the dot product over the step's 1024 columns of row p
    of the x block with row q of the other block (both operands are contracted on their last axis);
  * the output block stores, at (p, q), (accW(p,q) + bias(0,q)) + (Σ_r accA(p,r)·B(q,r)) · 2.
-/
import proofs.«168070_j22548578304347_1_alg».proof.Proof.Gen.KernelIdeal.Skeleton
import proofs.«168070_j22548578304347_1_alg».proof.Proof.LibMatmulNT
import proofs.«168070_j22548578304347_1_alg».proof.Proof.LibMatmulPlain
import Idealize.ShloMosaic.Lib.ValueIdx
import Idealize.ShloMosaic.Lib.Pipeline.Value

noncomputable section

open scoped BigOperators

namespace Cert.KernelIdeal.PayIdx

open Cert.KernelIdeal Cert.KernelIdeal.Gen Idealize.ShloMosaic Idealize.ShloMosaic.ValueIdx

/-- The reset of accW stores zero everywhere. -/
theorem pay1_apply (p : Fin 512) (q : Fin 1024) : k0_pay1 (F := Ideal) (ix2 p q) = 0 := by
  unfold k0_pay1
  simp only [shapeCast_self]
  exact Ideal.ofBits_zero_f32

/-- The reset of accA stores zero everywhere. -/
theorem pay2_apply (p : Fin 512) (r : Fin 16) : k0_pay2 (F := Ideal) (ix2 p r) = 0 := by
  unfold k0_pay2
  simp only [shapeCast_self]
  exact Ideal.ofBits_zero_f32

/-- The update of accW: the old entry plus the step's dot product of row p of the x block with row q of the W block. -/
theorem pay4_apply (v3 : Vec Ideal S512x1024 .f32) (v6 : Vec Ideal S1024x1024 .f32) (v10 : Vec Ideal S512x1024 .f32)
    (p : Fin 512) (q : Fin 1024) :
    k0_pay4 v3 v6 v10 (ix2 p q) = v10 (ix2 p q) + ∑ kk : Fin 1024, v3 (ix2 p kk) * v6 (ix2 q kk) := by
  unfold k0_pay4 k0_pay3
  simp only [shapeCast_self]
  exact congrArg (v10 (ix2 p q) + ·) (Cert.LibMatmulNT.matmul_nt_zero_apply none v3 v6 p q)

/-- The update of accA: the old entry plus the step's dot product of row p of the x block with row r of the A block. -/
theorem pay5_apply (v3 : Vec Ideal S512x1024 .f32) (v8 : Vec Ideal S16x1024 .f32) (v16 : Vec Ideal S512x16 .f32)
    (p : Fin 512) (r : Fin 16) :
    k0_pay5 v3 v8 v16 (ix2 p r) = v16 (ix2 p r) + ∑ kk : Fin 1024, v3 (ix2 p kk) * v8 (ix2 r kk) := by
  unfold k0_pay5 k0_pay3
  simp only [shapeCast_self]
  exact congrArg (v16 (ix2 p r) + ·) (Cert.LibMatmulNT.matmul_nt_zero_apply none v3 v8 p r)

/-- The output block: (accW + bias row) + (accA · Bᵀ) · 2, entry by entry. -/
theorem pay6_apply (v25 : Vec Ideal S1024x16 .f32) (v27 : Vec Ideal S512x16 .f32) (v32 : Vec Ideal S512x1024 .f32)
    (v33 : Vec Ideal S1x1024 .f32) (p : Fin 512) (q : Fin 1024) :
    k0_pay6 v25 v27 v32 v33 (ix2 p q)
      = (v32 (ix2 p q) + v33 (ix2 0 q))
        + (∑ r : Fin 16, v27 (ix2 p r) * v25 (ix2 q r)) * Ideal.ofBits .f32 0x40000000#32 := by
  unfold k0_pay6
  simp only [shapeCast_self]
  exact congrArg₂ (· + ·)
    (congrArg (v32 (ix2 p q) + ·) (Cert.LibMatmulPlain.rowBroadcast_apply v33 broadcasts_S1x1024_S512x1024 p q))
    (congrArg (· * Ideal.ofBits .f32 0x40000000#32) (Cert.LibMatmulNT.matmul_nt_zero_apply none v27 v25 p q))

end Cert.KernelIdeal.PayIdx

end
-- ==== Proof.Invariant.lean ====
/-
  What the two accumulators hold after every grid point, and what the output block holds at a last step.

  Write t = (i·4 + j)·4 + k. After point t the accumulator accW holds, at (p, q), the sum over the steps kb = 0 … k of the
  block dot products of row i·512 + p of x with row j·1024 + q of W, and accA holds at (p, r) the same with row r of A:
  the first step (k = 0) resets both and adds its own block dot product; each later step adds its own to what the point
  before left, and the point before is the same (i, j) one step earlier. This is an induction on t, never an
  enumeration of the grid. At a last step (k = 3) the output block at (p, q) is
  (accW(p,q) + bias(j·1024 + q)) + (Σ_r accA(p,r) · B(j·1024 + q, r)) · 2 of the accumulators that point leaves.
-/
import proofs.«168070_j22548578304347_1_alg».proof.Proof.Gen.KernelIdeal.Frame
import proofs.«168070_j22548578304347_1_alg».proof.Proof.Spec
import proofs.«168070_j22548578304347_1_alg».proof.Proof.Pieces
import proofs.«168070_j22548578304347_1_alg».proof.Proof.PayIdx
import proofs.«168070_j22548578304347_1_alg».proof.Proof.Blocks

noncomputable section

open scoped BigOperators
open Idealize.ShloMosaic Idealize.ShloMosaic.TcCoe Idealize.SL.Sem

namespace Cert.KernelIdeal.Invariant

open Cert.KernelIdeal Cert.KernelIdeal.Gen Idealize.ShloMosaic.ValueIdx Cert.Spec Cert.KernelIdeal.Blocks

variable (m : (ℓ : Loc nD τ sig) → Buf (Elt Ideal) ℓ)

/-- The x·Wᵀ accumulator after point n. -/
abbrev accW (c : Dev nD) (n : ℕ) (hn : n < cfg0.N) : Vec Ideal S512x1024 .f32 := (outsAt0 m c n hn).2.1
/-- The x·Aᵀ accumulator after point n. -/
abbrev accA (c : Dev nD) (n : ℕ) (hn : n < cfg0.N) : Vec Ideal S512x16 .f32 := (outsAt0 m c n hn).2.2
/-- The output block's buffer after point n. -/
abbrev outB (c : Dev nD) (n : ℕ) (hn : n < cfg0.N) : Vec Ideal S512x1024 .f32 := (outsAt0 m c n hn).1

/-! ## One point -/

/-- A first step leaves in accW its own block dot product (on top of the zero it reset to). -/
theorem accW_first (c : Dev nD) (t : Fin cfg0.N) (h0 : t.val % 4 = 0) (p : Fin 512) (q : Fin 1024) :
    accW m c t.val t.isLt (ix2 p q)
      = blockDot (Xarr m c) (Warr m c) (t.val / 16 * 512 + p.val) (t.val / 4 % 4 * 1024 + q.val) 0 := by
  have h1 : ¬t.val % 4 = 3 := by omega
  show (outsAt0 m c t.val t.isLt).2.1 (ix2 p q) = _
  rw [outsAt0_A m c t h0 h1]
  dsimp only
  refine (congrFun (Pieces.accW_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix2 p q)).trans ?_
  refine (PayIdx.pay4_apply (iblk m c 0 t) (iblk m c 1 t) (k0_pay1 (F := Ideal)) p q).trans ?_
  rw [PayIdx.pay1_apply, zero_add]
  unfold blockDot
  refine Finset.sum_congr rfl fun kk _ => ?_
  rw [xblk_apply m c t p kk, wblk_apply m c t q kk, h0]

/-- A first step leaves in accA its own block dot product. -/
theorem accA_first (c : Dev nD) (t : Fin cfg0.N) (h0 : t.val % 4 = 0) (p : Fin 512) (r : Fin 16) :
    accA m c t.val t.isLt (ix2 p r)
      = blockDot (Xarr m c) (Aarr m c) (t.val / 16 * 512 + p.val) r.val 0 := by
  have h1 : ¬t.val % 4 = 3 := by omega
  show (outsAt0 m c t.val t.isLt).2.2 (ix2 p r) = _
  rw [outsAt0_A m c t h0 h1]
  dsimp only
  refine (congrFun (Pieces.accA_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix2 p r)).trans ?_
  refine (PayIdx.pay5_apply (iblk m c 0 t) (iblk m c 2 t) (k0_pay2 (F := Ideal)) p r).trans ?_
  rw [PayIdx.pay2_apply, zero_add]
  unfold blockDot
  refine Finset.sum_congr rfl fun kk _ => ?_
  rw [xblk_apply m c t p kk, ablk_apply m c t r kk, h0]

/-- A later step adds its own block dot product to what the point before left in accW. -/
theorem accW_step (c : Dev nD) (t : Fin cfg0.N) (h0 : ¬t.val % 4 = 0) (p : Fin 512) (q : Fin 1024) :
    accW m c t.val t.isLt (ix2 p q)
      = accW m c (t.val - 1) (Nat.lt_of_le_of_lt (Nat.sub_le _ _) t.isLt) (ix2 p q)
        + blockDot (Xarr m c) (Warr m c) (t.val / 16 * 512 + p.val) (t.val / 4 % 4 * 1024 + q.val) (t.val % 4) := by
  show (outsAt0 m c t.val t.isLt).2.1 (ix2 p q) = _
  by_cases h1 : t.val % 4 = 3
  · rw [outsAt0_C m c t h0 h1]
    dsimp only
    refine (congrFun (Pieces.accW_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
    refine (PayIdx.pay4_apply (iblk m c 0 t) (iblk m c 1 t) (outsAt0 m c (t.val - 1) (Nat.lt_of_le_of_lt (Nat.sub_le _ _) t.isLt)).2.1 p q).trans ?_
    unfold blockDot
    refine congrArg (_ + ·) (Finset.sum_congr rfl fun kk _ => ?_)
    rw [xblk_apply m c t p kk, wblk_apply m c t q kk]
  · rw [outsAt0_B m c t h0 h1]
    dsimp only
    refine (congrFun (Pieces.accW_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
    refine (PayIdx.pay4_apply (iblk m c 0 t) (iblk m c 1 t) (outsAt0 m c (t.val - 1) (Nat.lt_of_le_of_lt (Nat.sub_le _ _) t.isLt)).2.1 p q).trans ?_
    unfold blockDot
    refine congrArg (_ + ·) (Finset.sum_congr rfl fun kk _ => ?_)
    rw [xblk_apply m c t p kk, wblk_apply m c t q kk]

/-- A later step adds its own block dot product to what the point before left in accA. -/
theorem accA_step (c : Dev nD) (t : Fin cfg0.N) (h0 : ¬t.val % 4 = 0) (p : Fin 512) (r : Fin 16) :
    accA m c t.val t.isLt (ix2 p r)
      = accA m c (t.val - 1) (Nat.lt_of_le_of_lt (Nat.sub_le _ _) t.isLt) (ix2 p r)
        + blockDot (Xarr m c) (Aarr m c) (t.val / 16 * 512 + p.val) r.val (t.val % 4) := by
  show (outsAt0 m c t.val t.isLt).2.2 (ix2 p r) = _
  by_cases h1 : t.val % 4 = 3
  · rw [outsAt0_C m c t h0 h1]
    dsimp only
    refine (congrFun (Pieces.accA_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
    refine (PayIdx.pay5_apply (iblk m c 0 t) (iblk m c 2 t) (outsAt0 m c (t.val - 1) (Nat.lt_of_le_of_lt (Nat.sub_le _ _) t.isLt)).2.2 p r).trans ?_
    unfold blockDot
    refine congrArg (_ + ·) (Finset.sum_congr rfl fun kk _ => ?_)
    rw [xblk_apply m c t p kk, ablk_apply m c t r kk]
  · rw [outsAt0_B m c t h0 h1]
    dsimp only
    refine (congrFun (Pieces.accA_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
    refine (PayIdx.pay5_apply (iblk m c 0 t) (iblk m c 2 t) (outsAt0 m c (t.val - 1) (Nat.lt_of_le_of_lt (Nat.sub_le _ _) t.isLt)).2.2 p r).trans ?_
    unfold blockDot
    refine congrArg (_ + ·) (Finset.sum_congr rfl fun kk _ => ?_)
    rw [xblk_apply m c t p kk, ablk_apply m c t r kk]

/-! ## Every point: the partial sums -/

/-- accW after point n: the block dot products of the steps so far. -/
theorem accW_eq (c : Dev nD) : ∀ (n : ℕ) (hn : n < cfg0.N) (p : Fin 512) (q : Fin 1024),
    accW m c n hn (ix2 p q)
      = ∑ kb ∈ Finset.range (n % 4 + 1),
          blockDot (Xarr m c) (Warr m c) (n / 16 * 512 + p.val) (n / 4 % 4 * 1024 + q.val) kb := by
  intro n
  induction n using Nat.strong_induction_on with
  | _ n ih =>
    intro hn p q
    by_cases h0 : n % 4 = 0
    · rw [h0, Finset.sum_range_one]
      exact accW_first m c ⟨n, hn⟩ h0 p q
    · refine (accW_step m c ⟨n, hn⟩ h0 p q).trans ?_
      dsimp only
      rw [ih (n - 1) (by omega) _ p q]
      have e1 : (n - 1) / 16 = n / 16 := by omega
      have e2 : (n - 1) / 4 % 4 = n / 4 % 4 := by omega
      have e3 : (n - 1) % 4 + 1 = n % 4 := by omega
      rw [e1, e2, e3, ← Finset.sum_range_succ]

/-- accA after point n: the block dot products of the steps so far. -/
theorem accA_eq (c : Dev nD) : ∀ (n : ℕ) (hn : n < cfg0.N) (p : Fin 512) (r : Fin 16),
    accA m c n hn (ix2 p r)
      = ∑ kb ∈ Finset.range (n % 4 + 1), blockDot (Xarr m c) (Aarr m c) (n / 16 * 512 + p.val) r.val kb := by
  intro n
  induction n using Nat.strong_induction_on with
  | _ n ih =>
    intro hn p r
    by_cases h0 : n % 4 = 0
    · rw [h0, Finset.sum_range_one]
      exact accA_first m c ⟨n, hn⟩ h0 p r
    · refine (accA_step m c ⟨n, hn⟩ h0 p r).trans ?_
      dsimp only
      rw [ih (n - 1) (by omega) _ p r]
      have e1 : (n - 1) / 16 = n / 16 := by omega
      have e3 : (n - 1) % 4 + 1 = n % 4 := by omega
      rw [e1, e3, ← Finset.sum_range_succ]

/-! ## A last step: the output block -/

/-- At a last step the output block is formed from the two accumulators as that step leaves them. -/
theorem out_last (c : Dev nD) (t : Fin cfg0.N) (h1 : t.val % 4 = 3) (p : Fin 512) (q : Fin 1024) :
    outB m c t.val t.isLt (ix2 p q)
      = (accW m c t.val t.isLt (ix2 p q) + at2 (biasArr m c) 0 (t.val / 4 % 4 * 1024 + q.val))
        + (∑ r : Fin 16, accA m c t.val t.isLt (ix2 p r) * at2 (Barr m c) (t.val / 4 % 4 * 1024 + q.val) r.val) * two := by
  have h0 : ¬t.val % 4 = 0 := by omega
  show (outsAt0 m c t.val t.isLt).1 (ix2 p q)
    = ((outsAt0 m c t.val t.isLt).2.1 (ix2 p q) + _) + (∑ r : Fin 16, (outsAt0 m c t.val t.isLt).2.2 (ix2 p r) * _) * two
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2,
    Pieces.accW_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2,
    Pieces.accA_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2]
  refine (PayIdx.pay6_apply (iblk m c 3 t) (k0_pay5 (iblk m c 0 t) (iblk m c 2 t) (outsAt0 m c (t.val - 1) (Nat.lt_of_le_of_lt (Nat.sub_le _ _) t.isLt)).2.2)
    (k0_pay4 (iblk m c 0 t) (iblk m c 1 t) (outsAt0 m c (t.val - 1) (Nat.lt_of_le_of_lt (Nat.sub_le _ _) t.isLt)).2.1) (iblk m c 4 t) p q).trans ?_
  rw [biasblk_apply m c t 0 q]
  refine congrArg (_ + ·) (congrArg (· * two) (Finset.sum_congr rfl fun r _ => ?_))
  rw [bblk_apply m c t q r]

end Cert.KernelIdeal.Invariant

end
-- ==== Proof.Final.lean ====
/-
  From the blocks to the whole result, and the kernel's run read back.

  The result array (8192 × 4096) is written back only at the last steps of the contracted axis (t mod 4 = 3), one
  512 × 1024 block each: the block of point t covers rows (t/16)·512 … and columns (t/4 mod 4)·1024 …, and there the
  output block is the layer's value (the two accumulators hold all four block dot products, which add up to the whole
  contraction). Every entry (R, C) lies in the block of the point with i = R / 512, j = C / 1024 and k = 3, so the
  array ends holding the layer's value everywhere; the program then re-lays it out as 4 × 2048 × 4096.
-/
import proofs.«168070_j22548578304347_1_alg».proof.Proof.Gen.KernelIdeal.Frame
import proofs.«168070_j22548578304347_1_alg».proof.Proof.Spec
import proofs.«168070_j22548578304347_1_alg».proof.Proof.Blocks
import proofs.«168070_j22548578304347_1_alg».proof.Proof.Invariant
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Spec Cert.KernelIdeal.Blocks
  Cert.KernelIdeal.Invariant

variable (m : (ℓ : Loc nD τ sig) → Buf (Elt Ideal) ℓ) (ρ : Dev nD → PrngReg)

/-- The layer's value on the flat 8192 × 4096 layout, of the arrays as the region finds them. -/
abbrev Gflat (c : Dev nD) : Vec Ideal S8192x4096 .f32 :=
  Gout (Xarr m c) (Warr m c) (biasArr m c) (Aarr m c) (Barr m c)

/-- What a last step writes back is its block of the layer's value. -/
theorem flushed_eq (c : Dev nD) (t : Fin cfg0.N) (hf : (cfg0.win 5).flush t = true) :
    (dats m 0 c).flushed 5 t = ((cfg0.win 5).blk t).view.read (Elt Ideal) (Gflat m c) := by
  have h3 : t.val % 4 = 3 := (flush0_5 t).mp hf
  have hN : t.val < 256 := lt_of_lt_of_eq t.isLt (show cfg0.N = 256 from N_0)
  obtain ⟨e00, e01, e10, e11, e20, e21, e30, e31, e40, e41, e50, e51⟩ := idx_facts t
  show (cfg0.win 5).cut (grid0.coords t) ((dats m 0 c).after 5 t) = _
  rw [after0_5]
  funext j
  obtain ⟨p, q, rfl⟩ : ∃ (p : Fin 512) (q : Fin 1024), j = ix2 p q := ⟨j 0, j 1, eq_ix2 j⟩
  have hp := p.isLt
  have hq := q.isLt
  have hR : t.val / 16 * 512 + p.val < 8192 := by omega
  have hC : t.val / 4 % 4 * 1024 + q.val < 4096 := by omega
  show (outsAt0 m c t.val t.isLt).1 (ix2 p q) = Gflat m c (((cfg0.win 5).blk t).view.emb (ix2 p q))
  have hemb : ((cfg0.win 5).blk t).view.emb (ix2 p q)
      = ix2 (⟨t.val / 16 * 512 + p.val, hR⟩ : Fin 8192) (⟨t.val / 4 % 4 * 1024 + q.val, hC⟩ : Fin 4096) := by
    funext a; apply Fin.ext
    match a with
    | ⟨0, _⟩ => show win0_5.index t (0 : Fin 2) * 512 + 1 * p.val = t.val / 16 * 512 + p.val; rw [e50]; omega
    | ⟨1, _⟩ => show win0_5.index t (1 : Fin 2) * 1024 + 1 * q.val = t.val / 4 % 4 * 1024 + q.val; rw [e51]; omega
  rw [hemb]
  refine Eq.trans ?_ (Gout_at (Xarr m c) (Warr m c) (biasArr m c) (Aarr m c) (Barr m c) hR hC).symm
  refine (out_last m c t h3 p q).trans ?_
  have e4 : t.val % 4 + 1 = 4 := by omega
  rw [accW_eq m c t.val t.isLt p q, e4, at2_of_lt (biasArr m c) (show 0 < 1 by decide) hC]
  refine congrArg₂ (· + ·) rfl (congrArg (· * two) (Finset.sum_congr rfl fun r _ => ?_))
  rw [accA_eq m c t.val t.isLt p r, e4, at2_of_lt (Barr m c) hC r.isLt]

/-- An entry of the result array is in point t's block iff each coordinate is in the block's range. -/
theorem mem_blk (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v2).slice (win0_5.rect t)).set ↔ _
  rw [View.set_slice_whole, Rect.mem_set_unit]
  exact Iff.rfl

/-- Every entry of the result array is in the block some last step writes back. -/
theorem cover (i : S8192x4096.Idx) :
    ∃ t : Fin cfg0.N, (cfg0.win 5).flush t = true ∧ i ∈ ((cfg0.win 5).blk t).view.set := by
  have h0 : (i 0).val < 8192 := idx2_lt0 i
  have h1 : (i 1).val < 4096 := idx2_lt1 i
  have hlt : ((i 0).val / 512 * 4 + (i 1).val / 1024) * 4 + 3 < cfg0.N := by
    rw [show cfg0.N = 256 from N_0]; omega
  refine ⟨⟨((i 0).val / 512 * 4 + (i 1).val / 1024) * 4 + 3, hlt⟩, (flush0_5 _).mpr (by dsimp only; omega), ?_⟩
  obtain ⟨e00, e01, e10, e11, e20, e21, e30, e31, e40, e41, e50, e51⟩ :=
    idx_facts ⟨((i 0).val / 512 * 4 + (i 1).val / 1024) * 4 + 3, hlt⟩
  dsimp only at e50 e51
  rw [mem_blk]
  intro a
  match a with
  | ⟨0, _⟩ =>
    show win0_5.index _ (0 : Fin 2) * 512 ≤ (i 0).val ∧ (i 0).val < win0_5.index _ (0 : Fin 2) * 512 + 512
    rw [e50]; omega
  | ⟨1, _⟩ =>
    show win0_5.index _ (1 : Fin 2) * 1024 ≤ (i 1).val ∧ (i 1).val < win0_5.index _ (1 : Fin 2) * 1024 + 1024
    rw [e51]; omega

/-- So the result array ends holding the layer's value. -/
theorem final (c : Dev nD) : (dats m 0 c).arrAt 5 cfg0.N = Gflat m c :=
  (dats m 0 c).arrAt_eq_of_cover 5 (Gflat m c) (flushed_eq m c) cover

/-- The program's last line re-lays the result array out as 4 × 2048 × 4096. -/
theorem tail_eq (c : Dev nD) :
    Pipeline.afterTail₀ cfgs (dats m) 0 (V0 m) [hostOps1] c main_v3
      = shapeCast S4x2048x4096 (Gflat m c) shapeCasts_S8192x4096_S4x2048x4096 := by
  unfold Pipeline.afterTail₀
  show StableHlo.after hostOps1 _ (Proc.devRef .tc main_v3) = _
  after_results
  exact congrArg (fun v => shapeCast S4x2048x4096 v shapeCasts_S8192x4096_S4x2048x4096)
    ((Pipeline.withArrays_arr spec0 launch0.win.arr_inj c _ _ 5).trans (final m c))

/-- The kernel's run, read: the result at the re-laid-out layer's value, the five arguments unchanged. -/
theorem run : θ_run defs (onTc (τ := τ) (main (F := Ideal))) ⟨m, fun _ => 0, ρ⟩ fun r => ∀ c : Dev nD,
      r.2.mem ((c.tc : Thread nD τ).loc main_v3)
          = shapeCast S4x2048x4096 (Gflat m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Final

end
-- ==== Proof.RefSide.lean ====
/-
  The reference computes the layer's value.

  Its ten host operations are: x·Wᵀ contracted over the 4096 inputs, plus the bias broadcast along the first two axes;
  x·Aᵀ contracted over the same axis, then that times Bᵀ contracted over the 16 adapter ranks, times the constant 2;
  and the sum of the two. Read at position (bb, s, o) at the ideal values, operation by operation, that is

      (Σ_c x(bb,s,c)·W(o,c) + b(o)) + (Σ_r (Σ_c x(bb,s,c)·A(r,c)) · B(o,r)) · 2.
-/
import proofs.«168070_j22548578304347_1_alg».proof.Proof.Gen.ReferenceIdeal.Read
import proofs.«168070_j22548578304347_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-- The reference's result, as a function of its five arguments, is the layer's value on the 4 × 2048 × 4096 layout. -/
theorem ref_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = G3 x0 x1 x2 x3 x4 := by
  funext i
  obtain ⟨bb, s, o, rfl⟩ : ∃ (bb : Fin 4) (s : Fin 2048) (o : Fin 4096), i = ix3 bb s o := ⟨i 0, i 1, i 2, eq_ix3 i⟩
  rw [val_main_v8_apply, val_main_v3_apply, val_main_v0_apply, val_main_v2_apply, val_main_v1_apply, val_main_v7_apply,
    val_main_v5_apply, val_main_v6_apply, val_main_cst_apply]
  simp only [val_main_v4_apply]
  have l0 : ∀ k : Fin 4096, lidx_main_v0 (ix3 bb s o) k = ix3 bb s k := fun k => funext fun a => Fin.ext (by match a with | ⟨0, _⟩ => rfl | ⟨1, _⟩ => rfl | ⟨2, _⟩ => rfl)
  have r0 : ∀ k : Fin 4096, ridx_main_v0 (ix3 bb s o) k = ix2 o k := fun k => funext fun a => Fin.ext (by match a with | ⟨0, _⟩ => rfl | ⟨1, _⟩ => rfl)
  have i12 : idx_main_v1 (idx_main_v2 (ix3 bb s o)) = ix1 o :=
    funext fun a => Fin.ext (by match a with | ⟨0, _⟩ => rfl)
  have l4 : ∀ (r : Fin 16) (k : Fin 4096), lidx_main_v4 (lidx_main_v5 (ix3 bb s o) r) k = ix3 bb s k := fun r k => funext fun a => Fin.ext (by match a with | ⟨0, _⟩ => rfl | ⟨1, _⟩ => rfl | ⟨2, _⟩ => rfl)
  have r4 : ∀ (r : Fin 16) (k : Fin 4096), ridx_main_v4 (lidx_main_v5 (ix3 bb s o) r) k = ix2 r k := fun r k => funext fun a => Fin.ext (by match a with | ⟨0, _⟩ => rfl | ⟨1, _⟩ => rfl)
  have r5 : ∀ r : Fin 16, ridx_main_v5 (ix3 bb s o) r = ix2 o r := fun r => funext fun a => Fin.ext (by match a with | ⟨0, _⟩ => rfl | ⟨1, _⟩ => rfl)
  simp only [l0, r0, i12, l4, r4, r5]
  rfl

end Cert.ReferenceIdeal.RefValue

end
-- ==== Proof.lean ====
/-
  A linear layer with a rank-16 adapter: out = x·Wᵀ + b + ((x·Aᵀ)·Bᵀ)·2 over x : 4 × 2048 × 4096.

  The kernel flattens x to 8192 × 4096 and walks a 16 × 4 × 4 grid: 512 rows by 1024 output columns by four steps of 1024
  along the contracted axis. Two accumulators carry x·Wᵀ and x·Aᵀ across the four steps (reset at the first, the step's
  two products added each time); at the last step the output block is (accW + bias) + (accA·Bᵀ)·2. The reference is the
  same expression with whole contractions over 4096. At the ideal values (extended reals, exact operations, the
  narrowing to bfloat16 the identity) the two agree entry by entry: the only difference is that the kernel's
  contraction is grouped into four blocks, and regrouping a finite sum needs commutativity and associativity of +
  only — so the inputs' finiteness is never used.

  The three frames are the generated ones (the reference's is its generated run with the result dropped); the ideal
  pass rewrote nothing, so the idealization claim is trivial; the value claim is assembled below from the kernel's run
  read back (the accumulators' invariant over the grid points, the blocks covering the result) and the reference's
  run read operation by operation, both stated against one specification of the layer.
-/
import proofs.«168070_j22548578304347_1_alg».proof.Defs
import proofs.«168070_j22548578304347_1_alg».proof.Proof.Gen.Kernel
import proofs.«168070_j22548578304347_1_alg».proof.Proof.Gen.Kernel.Skeleton
import proofs.«168070_j22548578304347_1_alg».proof.Proof.Gen.Kernel.Launch
import proofs.«168070_j22548578304347_1_alg».proof.Proof.Gen.Kernel.Points
import proofs.«168070_j22548578304347_1_alg».proof.Proof.Gen.Kernel.Frame
import proofs.«168070_j22548578304347_1_alg».proof.Proof.Gen.KernelIdeal
import proofs.«168070_j22548578304347_1_alg».proof.Proof.Gen.KernelIdeal.Skeleton
import proofs.«168070_j22548578304347_1_alg».proof.Proof.Gen.KernelIdeal.Launch
import proofs.«168070_j22548578304347_1_alg».proof.Proof.Gen.KernelIdeal.Points
import proofs.«168070_j22548578304347_1_alg».proof.Proof.Gen.KernelIdeal.Frame
import proofs.«168070_j22548578304347_1_alg».proof.Proof.Gen.ReferenceIdeal
import proofs.«168070_j22548578304347_1_alg».proof.Proof.Gen.Pre_finite_inputs
import proofs.«168070_j22548578304347_1_alg».proof.Proof.Gen.ReferenceIdeal.Run
import proofs.«168070_j22548578304347_1_alg».proof.Proof.Gen.ReferenceIdeal.Read
import proofs.«168070_j22548578304347_1_alg».proof.Proof.Spec
import proofs.«168070_j22548578304347_1_alg».proof.Proof.Blocks
import proofs.«168070_j22548578304347_1_alg».proof.Proof.Final
import proofs.«168070_j22548578304347_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's value of the (agreeing) arguments: the kernel's flat result re-laid out is the
    specification through the row-major re-layouts, and the reference's composed term is the specification read
    operation by operation. -/
theorem algebraic : Cert.algebraic_KernelIdeal_ReferenceIdeal := by
  intro m ρ m' ρ' _ hagree
  refine ⟨fun c => Cert.Spec.G3 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Final.run m ρ)
    show shapeCast _ (Cert.Spec.Gout (Cert.KernelIdeal.Blocks.Xarr m c) (Cert.KernelIdeal.Blocks.Warr m c)
      (Cert.KernelIdeal.Blocks.biasArr m c) (Cert.KernelIdeal.Blocks.Aarr m c) (Cert.KernelIdeal.Blocks.Barr m c)) _ = _
    rw [Cert.KernelIdeal.Blocks.Xarr_eq, Cert.KernelIdeal.Blocks.biasArr_eq, Cert.KernelIdeal.Blocks.Warr_eq,
      Cert.KernelIdeal.Blocks.Aarr_eq, Cert.KernelIdeal.Blocks.Barr_eq]
    exact Cert.Spec.reshape_Gout _ _ _ _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.ref_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
